-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S64x128 : Shape := ⟨2, ![64, 128]⟩
abbrev S500000 : Shape := ⟨1, ![500000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S512 .f32) (main_arg9 : FVec F S512x128 .f32) (main_arg10 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S512x512 .f32) (main_arg6 : FVec F S512 .f32) (main_arg7 : FVec F S512x512 .f32) (main_arg8 : FVec F S512 .f32) (main_arg9 : FVec F S512x128 .f32) (main_arg10 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S500000x128 .f32) (main_arg1 : FVec F S500000x128 .f32) (main_arg2 : FVec F S500000x128 .f32) (main_arg3 : FVec F S64x128 .f32) (main_arg4 : IVec S500000 32) (main_arg5 : FVec F S512x512 .f32) (main_arg6 : FVec F S512 .f32) (main_arg7 : FVec F S512x512 .f32) (main_arg8 : FVec F S512 .f32) (main_arg9 : FVec F S512x128 .f32) (main_arg10 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x128 .f32 := Host.absf main_arg2
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_v13 main_v16
-- ==== Kernel.lean ====
abbrev S500000x128 : Shape := ⟨2, ![500000, 128]⟩
abbrev S64x128 : Shape := ⟨2, ![64, 128]⟩
abbrev S500000 : Shape := ⟨1, ![500000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S1x512 : Shape := ⟨2, ![1, 512]⟩
abbrev S1x128 : Shape := ⟨2, ![1, 128]⟩
abbrev S_ : Shape := ⟨0, ![]⟩
abbrev S500000x1 : Shape := ⟨2, ![500000, 1]⟩
abbrev S4000x128 : Shape := ⟨2, ![4000, 128]⟩
abbrev S4000x1 : Shape := ⟨2, ![4000, 1]⟩
abbrev S4000x512 : Shape := ⟨2, ![4000, 512]⟩
abbrev S4000x64 : Shape := ⟨2, ![4000, 64]⟩

abbrev nBuf : Space → Nat
  | .hbm => 37
  | .vmem => 18
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S64x128, .f32⟩
  | .hbm, ⟨4, _⟩ => ⟨S500000, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S512x512, .bf16⟩
  | .hbm, ⟨12, _⟩ => ⟨S512x512, .bf16⟩
  | .hbm, ⟨13, _⟩ => ⟨S512x128, .bf16⟩
  | .hbm, ⟨14, _⟩ => ⟨S64x128, .bf16⟩
  | .hbm, ⟨15, _⟩ => ⟨S1x512, .f32⟩
  | .hbm, ⟨16, _⟩ => ⟨S1x512, .bf16⟩
  | .hbm, ⟨17, _⟩ => ⟨S1x512, .f32⟩
  | .hbm, ⟨18, _⟩ => ⟨S1x512, .bf16⟩
  | .hbm, ⟨19, _⟩ => ⟨S1x128, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x1, .i32⟩
  | .local _ .vmem, ⟨7, _⟩ => ⟨S4000x1, .i32⟩
  | .local _ .vmem, ⟨8, _⟩ => ⟨S64x128, .bf16⟩
  | .local _ .vmem, ⟨9, _⟩ => ⟨S512x512, .bf16⟩
  | .local _ .vmem, ⟨10, _⟩ => ⟨S1x512, .bf16⟩
  | .local _ .vmem, ⟨11, _⟩ => ⟨S512x512, .bf16⟩
  | .local _ .vmem, ⟨12, _⟩ => ⟨S1x512, .bf16⟩
  | .local _ .vmem, ⟨13, _⟩ => ⟨S512x128, .bf16⟩
  | .local _ .vmem, ⟨14, _⟩ => ⟨S1x128, .f32⟩
  | .local _ .vmem, ⟨15, _⟩ => ⟨S4000x128, .f32⟩
  | .local _ .vmem, ⟨16, _⟩ => ⟨S4000x128, .f32⟩
  | .local _ .vmem, ⟨17, _⟩ => ⟨S4000x512, .bf16⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S512_S1x512 : S512.ShapeCasts S1x512
  shapeCasts_S128_S1x128 : S128.ShapeCasts S1x128
  bcast_S_S500000 : S_.BroadcastsInDim S500000 (![] : Fin 0 → Fin S500000.rank)
  shapeCasts_S500000_S500000x1 : S500000.ShapeCasts S500000x1
  iota_S4000x64_d1_w32 : S4000x64.Iotas .tc 32 [1]
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  natLt_1_32 : 1 < 32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4000x128_S4000x128_0_0 : ∀ a, (![0, 0] : Fin 2 → Nat) a + S4000x128.size a ≤ S4000x128.size a
  h_S4000x128 : 0 < S4000x128.numel
  inb_S4000x512_S4000x128_0_0 : ∀ a, (![0, 0] : Fin 2 → Nat) a + S4000x128.size a ≤ S4000x512.size a
  shapeCasts_S4000x128_S4000x128 : S4000x128.ShapeCasts S4000x128
  packedbf16_S4000x512_S4000x128_0_0 : (Rect.unit (s := S4000x512) ![0, 0] S4000x128.size inb_S4000x512_S4000x128_0_0).PackedRows (EltTy.packing .bf16)
  inb_S4000x512_S4000x128_0_128 : ∀ a, (![0, 128] : Fin 2 → Nat) a + S4000x128.size a ≤ S4000x512.size a
  packedbf16_S4000x512_S4000x128_0_128 : (Rect.unit (s := S4000x512) ![0, 128] S4000x128.size inb_S4000x512_S4000x128_0_128).PackedRows (EltTy.packing .bf16)
  inb_S4000x512_S4000x128_0_256 : ∀ a, (![0, 256] : Fin 2 → Nat) a + S4000x128.size a ≤ S4000x512.size a
  packedbf16_S4000x512_S4000x128_0_256 : (Rect.unit (s := S4000x512) ![0, 256] S4000x128.size inb_S4000x512_S4000x128_0_256).PackedRows (EltTy.packing .bf16)
  inb_S4000x512_S4000x128_0_384 : ∀ a, (![0, 384] : Fin 2 → Nat) a + S4000x128.size a ≤ S4000x512.size a
  packedbf16_S4000x512_S4000x128_0_384 : (Rect.unit (s := S4000x512) ![0, 384] S4000x128.size inb_S4000x512_S4000x128_0_384).PackedRows (EltTy.packing .bf16)
  inb_S4000x512_S4000x512_0_0 : ∀ a, (![0, 0] : Fin 2 → Nat) a + S4000x512.size a ≤ S4000x512.size a
  h_S4000x512 : 0 < S4000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  dot_S4000x64_S64x128_S4000x128_1_0_0_1_n_n_wf : DotDims.WF S4000x64 S64x128 S4000x128 [1] [0] [0] [1] [] []
  dot_S4000x512_S512x512_S4000x512_1_0_0_1_n_n_wf : DotDims.WF S4000x512 S512x512 S4000x512 [1] [0] [0] [1] [] []
  dot_S4000x512_S512x128_S4000x128_1_0_0_1_n_n_wf : DotDims.WF S4000x512 S512x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S500000x128.size a
  hwx0_2 : ∀ i : grid0.Coords, EltTy.bits .f32 = 32 ∨ (Rect.block (s := S500000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S500000x1.size a
  hwx0_3 : ∀ i : grid0.Coords, EltTy.bits .i32 = 32 ∨ (Rect.block (s := S500000x1) S4000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .bf16 = 32 ∨ (Rect.block (s := S1x512) S1x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .bf16 = 32 ∨ (Rect.block (s := S1x512) S1x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S512x128.size a
  hwx0_9 : ∀ i : grid0.Coords, EltTy.bits .bf16 = 32 ∨ (Rect.block (s := S512x128) S512x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S500000x128.size a
  hwx0_11 : ∀ i : grid0.Coords, EltTy.bits .f32 = 32 ∨ (Rect.block (s := S500000x128) S4000x128.size (cc0_transform_11 i) (hinb0_11 i)).WholeWords (EltTy.packing .f32)

variable [Facts₀]

def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x512_S512x512_S4000x512_1_0_0_1_n_n : DotDims S4000x512 S512x512 S4000x512 where
  lhsContracting := [1]
  rhsContracting := [0]
  lhsNonContracting := [0]
  rhsNonContracting := [1]
  lhsBatch := []
  rhsBatch := []
  wf := dot_S4000x512_S512x512_S4000x512_1_0_0_1_n_n_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S512x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S500000x128 : Shape := ⟨2, ![500000, 128]⟩
abbrev S64x128 : Shape := ⟨2, ![64, 128]⟩
abbrev S500000 : Shape := ⟨1, ![500000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩
abbrev S500000x1 : Shape := ⟨2, ![500000, 1]⟩
abbrev S500000x512 : Shape := ⟨2, ![500000, 512]⟩
abbrev S1x512 : Shape := ⟨2, ![1, 512]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S64x128, .f32⟩
  | .hbm, ⟨4, _⟩ => ⟨S500000, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S500000x512, .f32⟩
  | .hbm, ⟨21, _⟩ => ⟨S500000x512, .f32⟩
  | .hbm, ⟨22, _⟩ => ⟨S1x512, .f32⟩
  | .hbm, ⟨23, _⟩ => ⟨S500000x512, .f32⟩
  | .hbm, ⟨24, _⟩ => ⟨S500000x512, .f32⟩
  | .hbm, ⟨25, _⟩ => ⟨S_, .f32⟩
  | .hbm, ⟨26, _⟩ => ⟨S500000x512, .f32⟩
  | .hbm, ⟨27, _⟩ => ⟨S500000x512, .f32⟩
  | .hbm, ⟨28, _⟩ => ⟨S500000x512, .f32⟩
  | .hbm, ⟨29, _⟩ => ⟨S1x512, .f32⟩
  | .hbm, ⟨30, _⟩ => ⟨S500000x512, .f32⟩
  | .hbm, ⟨31, _⟩ => ⟨S500000x512, .f32⟩
  | .hbm, ⟨32, _⟩ => ⟨S_, .f32⟩
  | .hbm, ⟨33, _⟩ => ⟨S500000x512, .f32⟩
  | .hbm, ⟨34, _⟩ => ⟨S500000x512, .f32⟩
  | .hbm, ⟨35, _⟩ => ⟨S500000x128, .f32⟩
  | .hbm, ⟨36, _⟩ => ⟨S1x128, .f32⟩
  | .hbm, ⟨37, _⟩ => ⟨S500000x128, .f32⟩
  | .hbm, ⟨38, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_cst : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x128_S500000x512_d1 : Shape.Concatenates [S500000x128, S500000x128, S500000x128, S500000x128] S500000x512 1
  bcast_S512_S1x512_1 : S512.BroadcastsInDim S1x512 (![1] : Fin 1 → Fin S1x512.rank)
  bcast_S1x512_S500000x512_0_1 : S1x512.BroadcastsInDim S500000x512 (![0, 1] : Fin 2 → Fin S500000x512.rank)
  bcast_S_S500000x512 : S_.BroadcastsInDim S500000x512 (![] : Fin 0 → Fin S500000x512.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  gather_S64x128_S500000x1_S500000x128_1_0_n_n_0_1_1128_wf : GatherDims.WF S64x128 S500000x1 S500000x128 [1] [0] [] [0] [] 1 ![1, 128]
  dot_S500000x512_S512x512_S500000x512_1_0_0_1_n_n_wf : DotDims.WF S500000x512 S512x512 S500000x512 [1] [0] [0] [1] [] []
  dot_S500000x512_S512x128_S500000x128_1_0_0_1_n_n_wf : DotDims.WF S500000x512 S512x128 S500000x128 [1] [0] [0] [1] [] []

variable [Facts₀]

def gather_S64x128_S500000x1_S500000x128_1_0_n_n_0_1_1128 : GatherDims S64x128 S500000x1 S500000x128 where
  offsetDims := [1]
  collapsedSliceDims := [0]
  operandBatchingDims := []
  startIndicesBatchingDims := []
  startIndexMap := [0]
  indexVectorDim := 1
  sliceSizes := ![1, 128]
  wf := gather_S64x128_S500000x1_S500000x128_1_0_n_n_0_1_1128_wf
def dot_S500000x512_S512x512_S500000x512_1_0_0_1_n_n : DotDims S500000x512 S512x512 S500000x512 where
  lhsContracting := [1]
  rhsContracting := [0]
  lhsNonContracting := [0]
  rhsNonContracting := [1]
  lhsBatch := []
  rhsBatch := []
  wf := dot_S500000x512_S512x512_S500000x512_1_0_0_1_n_n_wf
def dot_S500000x512_S512x128_S500000x128_1_0_0_1_n_n : DotDims S500000x512 S512x128 S500000x128 where
  lhsContracting := [1]
  rhsContracting := [0]
  lhsNonContracting := [0]
  rhsNonContracting := [1]
  lhsBatch := []
  rhsBatch := []
  wf := dot_S500000x512_S512x128_S500000x128_1_0_0_1_n_n_wf

class Facts : Prop extends Facts₀ where

variable [Facts]
-- ==== Proof.Mlp.lean ====
/-
  One edge of the edge model, over the extended reals.

  An edge's 512 features are, in this order, the 128 of its source node, the 128 of its destination node, its own 128
  and the 128 of its graph's global row. Three dense layers follow: 512 → 512 and 512 → 512, each followed by the
  rectifier max(·, 0), then 512 → 128 with no rectifier. A dense layer is (Σ_k f_k · W_{k j}) + b_j.

  The graph's row is chosen by a 32-bit id: a negative id first wraps by 64, and the result, read as a signed integer, is
  clamped into [0, 63]. Clamping a word between 0 and 63 and comparing it with the 64 row numbers selects that same
  row, and a sum against the resulting 0/1 indicator is the row's entry.
-/
import Idealize.ShloMosaic.PureOps.Ideal
import Idealize.ShloMosaic.PureOps.Ideal.Laws
import Idealize.ShloMosaic.Lib.ValueIdx
import Idealize.ShloMosaic.Lib.KernelVsHost

noncomputable section

namespace Cert.EdgeMlp

open Idealize.ShloMosaic Idealize.ShloMosaic.ValueIdx

/-! ## The feature row: four runs of 128 side by side -/

/-- Position k of the joined row: run a on [0, 128), b on [128, 256), c on [256, 384), d on [384, 512). -/
def featRow {α : Type} (a b c d : Fin 128 → α) (k : Fin 512) : α :=
  if h1 : k.val < 128 then a ⟨k.val, h1⟩
  else if h2 : k.val < 256 then b ⟨k.val - 128, by omega⟩
  else if h3 : k.val < 384 then c ⟨k.val - 256, by omega⟩
  else d ⟨k.val - 384, by omega⟩

theorem featRow_run0 {α : Type} (a b c d : Fin 128 → α) (k : Fin 512) (q : Fin 128) (h : k.val = q.val) :
    featRow a b c d k = a q := by
  unfold featRow
  rw [dif_pos (by omega)]
  exact congrArg a (Fin.ext h)

theorem featRow_run1 {α : Type} (a b c d : Fin 128 → α) (k : Fin 512) (q : Fin 128) (h : k.val = 128 + q.val) :
    featRow a b c d k = b q := by
  unfold featRow
  rw [dif_neg (by omega), dif_pos (by omega)]
  exact congrArg b (Fin.ext (by show k.val - 128 = q.val; omega))

theorem featRow_run2 {α : Type} (a b c d : Fin 128 → α) (k : Fin 512) (q : Fin 128) (h : k.val = 256 + q.val) :
    featRow a b c d k = c q := by
  unfold featRow
  rw [dif_neg (by omega), dif_neg (by omega), dif_pos (by omega)]
  exact congrArg c (Fin.ext (by show k.val - 256 = q.val; omega))

theorem featRow_run3 {α : Type} (a b c d : Fin 128 → α) (k : Fin 512) (q : Fin 128) (h : k.val = 384 + q.val) :
    featRow a b c d k = d q := by
  unfold featRow
  rw [dif_neg (by omega), dif_neg (by omega), dif_neg (by omega)]
  exact congrArg d (Fin.ext (by show k.val - 384 = q.val; omega))

/-! ## The three layers -/

/-- A dense layer on a row of 512: (Σ_k f_k · W_{k j}) + b_j. -/
def dense {n : Nat} (f : Fin 512 → EReal) (W : Fin 512 → Fin n → EReal) (b : Fin n → EReal) (j : Fin n) : EReal :=
  (∑ k : Fin 512, f k * W k j) + b j

/-- The model on one feature row: two rectified layers of width 512 and a last layer of width 128. -/
def mlp (f : Fin 512 → EReal) (W1 : Fin 512 → Fin 512 → EReal) (b1 : Fin 512 → EReal)
    (W2 : Fin 512 → Fin 512 → EReal) (b2 : Fin 512 → EReal) (W3 : Fin 512 → Fin 128 → EReal) (b3 : Fin 128 → EReal)
    (q : Fin 128) : EReal :=
  dense (fun j => max (dense (fun j => max (dense f W1 b1 j) 0) W2 b2 j) 0) W3 b3 q

/-! ## The graph's row -/

/-- A negative id wraps by the number of rows. -/
def wrapId (w : BitVec 32) : BitVec 32 := Scalar.select (IntOp.cmpi .slt w 0#32) (IntOp.addi w 64#32) w

/-- The row an id selects: the wrapped id, read signed, clamped into [0, 63]. -/
def graphRow (w : BitVec 32) : Fin 64 := ⟨min (wrapId w).toInt.toNat 63, by omega⟩

/-- Clamping a word between 0 and 63 (signed) leaves the word of its signed value clamped into [0, 63]. -/
theorem clip_eq (v : BitVec 32) :
    IntOp.minsi 63#32 (IntOp.maxsi 0#32 v) = BitVec.ofNat 32 (min v.toInt.toNat 63) := by
  have h0 : (0#32 : BitVec 32).toInt = 0 := by decide
  have h63 : (63#32 : BitVec 32).toInt = 63 := by decide
  unfold IntOp.minsi IntOp.maxsi
  by_cases hneg : v.toInt < 0
  · have e1 : v.slt 0#32 = true := by rw [BitVec.slt]; simp [h0, hneg]
    rw [if_pos e1]
    have e2 : ¬ ((63#32 : BitVec 32).slt 0#32 = true) := by decide
    rw [if_neg e2]
    have : min v.toInt.toNat 63 = 0 := by omega
    rw [this]
  · have e1 : ¬ (v.slt 0#32 = true) := by rw [BitVec.slt]; simp [h0]; omega
    rw [if_neg e1]
    have hnat : v.toInt = (v.toNat : ℤ) := by
      rcases BitVec.toInt_eq_toNat_cond v with h
      rw [h] at hneg ⊢
      split_ifs at hneg ⊢ with hc
      · rfl
      · omega
    by_cases hbig : 63 < v.toInt
    · have e2 : (63#32 : BitVec 32).slt v = true := by rw [BitVec.slt]; simp [h63, hbig]
      rw [if_pos e2]
      have : min v.toInt.toNat 63 = 63 := by omega
      rw [this]
    · have e2 : ¬ ((63#32 : BitVec 32).slt v = true) := by rw [BitVec.slt]; simp [h63]; omega
      rw [if_neg e2]
      have : min v.toInt.toNat 63 = v.toNat := by omega
      rw [this, BitVec.ofNat_toNat, BitVec.setWidth_eq]

/-- The 0/1 indicator "row r is row k" as a float: the comparison bit of the two row words, widened and converted. -/
theorem indicator_eq (r k : Fin 64) :
    ((((IntOp.cmpi .eq (BitVec.ofNat 32 r.val) (BitVec.ofNat 32 k.val)).setWidth 32).toInt : ℝ) : EReal)
      = if k = r then 1 else 0 := by
  rw [toInt_setWidth_bit]
  by_cases h : k = r
  · subst h
    simp [IntOp.cmpi]
  · have hne : ¬ (BitVec.ofNat 32 r.val = BitVec.ofNat 32 k.val) := by
      intro he
      have := congrArg BitVec.toNat he
      simp [BitVec.toNat_ofNat] at this
      have hr := r.isLt; have hk := k.isLt
      exact h (Fin.ext (by omega))
    simp [IntOp.cmpi, hne, h]

/-- A sum against the indicator of row r is the entry at r. -/
theorem sum_indicator (r : Fin 64) (u : Fin 64 → EReal) :
    ∑ k : Fin 64, (if k = r then (1 : EReal) else 0) * u k = u r := by
  rw [Finset.sum_eq_single r]
  · rw [if_pos rfl, one_mul]
  · intro k _ hk; rw [if_neg hk, zero_mul]
  · intro h; exact absurd (Finset.mem_univ r) h

/-- The bf16 zero pattern is the extended real 0. -/
theorem ofBits_zero_bf16 : Ideal.ofBits .bf16 0x0000#16 = 0 := by simp [Ideal.ofBits, Ideal.ieee]

/-! ## The result array -/

/-- Entry (e, q) of the result: the model at q on edge e's features, the fourth run the global row of e's graph. -/
def edgeOut (src dst ea : (⟨2, ![500000, 128]⟩ : Shape).Idx → EReal) (u : (⟨2, ![64, 128]⟩ : Shape).Idx → EReal)
    (ids : (⟨1, ![500000]⟩ : Shape).Idx → BitVec 32)
    (W1 : (⟨2, ![512, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 128]⟩ : Shape).Idx → EReal) (b3 : (⟨1, ![128]⟩ : Shape).Idx → EReal) :
    (⟨2, ![500000, 128]⟩ : Shape).Idx → EReal := fun i =>
  mlp (featRow (fun q => src (ix2 (⟨(i 0).val, idx2_lt0 i⟩ : Fin 500000) q)) (fun q => dst (ix2 (⟨(i 0).val, idx2_lt0 i⟩ : Fin 500000) q))
        (fun q => ea (ix2 (⟨(i 0).val, idx2_lt0 i⟩ : Fin 500000) q))
        (fun q => u (ix2 (graphRow (ids (ix1 (⟨(i 0).val, idx2_lt0 i⟩ : Fin 500000)))) q)))
    (fun k j => W1 (ix2 k j)) (fun j => b1 (ix1 j)) (fun k j => W2 (ix2 k j)) (fun j => b2 (ix1 j))
    (fun k j => W3 (ix2 k j)) (fun j => b3 (ix1 j)) (⟨(i 1).val, idx2_lt1 i⟩ : Fin 128)

end Cert.EdgeMlp

end
-- ==== Proof.KernelBody.lean ====
/-
  What one grid point's body leaves in its output block, as one pure term of the point's input blocks.

  The body stores four [4000 × 128] pieces side by side into the [4000 × 512] scratch (columns 0, 128, 256 and 384),
  reads the scratch back whole, and stores one value into the whole output block. The four pieces tile the scratch, so
  the read returns, row by row, the four piece rows joined; and the one store covers the output block, so the block
  ends at that store's value.
-/
import proofs.«423219_j55499567399386_3_alg».proof.Proof.Gen.KernelIdeal.Frame
import proofs.«423219_j55499567399386_3_alg».proof.Proof.Mlp
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.EdgeMlp

variable {F : FTy → Type} [FloatOps F]

theorem hz : (![0, 0] : Fin 2 → Nat) = fun _ => 0 := funext fun a => by fin_cases a <;> rfl

/-- Four [4000 × 128] pieces side by side: row r of the result is the four rows r joined. -/
def joinedRows (P0 P1 P2 P3 : FVec F S4000x128 .bf16) : Vec F S4000x512 .bf16 := fun y =>
  featRow (fun q => P0 (ix2 (⟨(y 0).val, idx2_lt0 y⟩ : Fin 4000) q)) (fun q => P1 (ix2 (⟨(y 0).val, idx2_lt0 y⟩ : Fin 4000) q))
    (fun q => P2 (ix2 (⟨(y 0).val, idx2_lt0 y⟩ : Fin 4000) q)) (fun q => P3 (ix2 (⟨(y 0).val, idx2_lt0 y⟩ : Fin 4000) q))
    (⟨(y 1).val, idx2_lt1 y⟩ : Fin 512)

/-- A whole read of the scratch after the four column-piece stores (last store first) is the pieces joined. -/
theorem scratch_read (v : View sig .tc .vmem S4000x512 .bf16) (P0 P1 P2 P3 : FVec F S4000x128 .bf16) :
    v.readCov ([⟨Rect.unit (s := S4000x512) ![0, 384] S4000x128.size inb_S4000x512_S4000x128_0_384, P3⟩,
        ⟨Rect.unit (s := S4000x512) ![0, 256] S4000x128.size inb_S4000x512_S4000x128_0_256, P2⟩,
        ⟨Rect.unit (s := S4000x512) ![0, 128] S4000x128.size inb_S4000x512_S4000x128_0_128, P1⟩,
        ⟨Rect.unit (s := S4000x512) ![0, 0] S4000x128.size inb_S4000x512_S4000x128_0_0, P0⟩] : List (View.Piece (Elt F) S4000x512 .bf16))
      (Rect.unit (s := S4000x512) ![0, 0] S4000x512.size inb_S4000x512_S4000x512_0_0).toLoadRect
      = joinedRows P0 P1 P2 P3 := by
  have hcov : ∀ y : S4000x512.Idx, ∃ p ∈ ([⟨Rect.unit (s := S4000x512) ![0, 384] S4000x128.size inb_S4000x512_S4000x128_0_384, P3⟩,
        ⟨Rect.unit (s := S4000x512) ![0, 256] S4000x128.size inb_S4000x512_S4000x128_0_256, P2⟩,
        ⟨Rect.unit (s := S4000x512) ![0, 128] S4000x128.size inb_S4000x512_S4000x128_0_128, P1⟩,
        ⟨Rect.unit (s := S4000x512) ![0, 0] S4000x128.size inb_S4000x512_S4000x128_0_0, P0⟩] : List (View.Piece (Elt F) S4000x512 .bf16)),
      y ∈ p.1.set := by
    intro y
    have h0 : (y 0).val < 4000 := idx2_lt0 y
    have h1 : (y 1).val < 512 := idx2_lt1 y
    by_cases c1 : (y 1).val < 128
    · refine ⟨⟨Rect.unit (s := S4000x512) ![0, 0] S4000x128.size inb_S4000x512_S4000x128_0_0, P0⟩, by simp, ?_⟩
      rw [Rect.mem_set_unit]
      intro a
      match a with
      | ⟨0, _⟩ => exact ⟨Nat.zero_le _, by show (y 0).val < 0 + 4000; omega⟩
      | ⟨1, _⟩ => exact ⟨Nat.zero_le _, by show (y 1).val < 0 + 128; omega⟩
    · by_cases c2 : (y 1).val < 256
      · refine ⟨⟨Rect.unit (s := S4000x512) ![0, 128] S4000x128.size inb_S4000x512_S4000x128_0_128, P1⟩, by simp, ?_⟩
        rw [Rect.mem_set_unit]
        intro a
        match a with
        | ⟨0, _⟩ => exact ⟨Nat.zero_le _, by show (y 0).val < 0 + 4000; omega⟩
        | ⟨1, _⟩ => exact ⟨by show 128 ≤ (y 1).val; omega, by show (y 1).val < 128 + 128; omega⟩
      · by_cases c3 : (y 1).val < 384
        · refine ⟨⟨Rect.unit (s := S4000x512) ![0, 256] S4000x128.size inb_S4000x512_S4000x128_0_256, P2⟩, by simp, ?_⟩
          rw [Rect.mem_set_unit]
          intro a
          match a with
          | ⟨0, _⟩ => exact ⟨Nat.zero_le _, by show (y 0).val < 0 + 4000; omega⟩
          | ⟨1, _⟩ => exact ⟨by show 256 ≤ (y 1).val; omega, by show (y 1).val < 256 + 128; omega⟩
        · refine ⟨⟨Rect.unit (s := S4000x512) ![0, 384] S4000x128.size inb_S4000x512_S4000x128_0_384, P3⟩, by simp, ?_⟩
          rw [Rect.mem_set_unit]
          intro a
          match a with
          | ⟨0, _⟩ => exact ⟨Nat.zero_le _, by show (y 0).val < 0 + 4000; omega⟩
          | ⟨1, _⟩ => exact ⟨by show 384 ≤ (y 1).val; omega, by show (y 1).val < 384 + 128; omega⟩
  rw [View.readCov_eq_canon_ld _ _ _ hcov, View.ld_unit_zero (S := S4000x512) hz]
  funext y
  refine View.canon_apply_of_pieces (joinedRows P0 P1 P2 P3) _ ?_ y (hcov y)
  intro p hp x
  simp only [List.mem_cons, List.mem_singleton, List.not_mem_nil, or_false] at hp
  rcases hp with rfl | rfl | rfl | rfl
  · show P3 x = featRow _ _ _ _ _
    rw [featRow_run3 _ _ _ _ _ (⟨(x 1).val, idx2_lt1 x⟩ : Fin 128) (by show 384 + 1 * (x 1).val = 384 + (x 1).val; omega)]
    refine congrArg P3 (funext fun a => Fin.ext ?_)
    match a with
    | ⟨0, _⟩ => show (x 0).val = 0 + 1 * (x 0).val; omega
    | ⟨1, _⟩ => rfl
  · show P2 x = featRow _ _ _ _ _
    rw [featRow_run2 _ _ _ _ _ (⟨(x 1).val, idx2_lt1 x⟩ : Fin 128) (by show 256 + 1 * (x 1).val = 256 + (x 1).val; omega)]
    refine congrArg P2 (funext fun a => Fin.ext ?_)
    match a with
    | ⟨0, _⟩ => show (x 0).val = 0 + 1 * (x 0).val; omega
    | ⟨1, _⟩ => rfl
  · show P1 x = featRow _ _ _ _ _
    rw [featRow_run1 _ _ _ _ _ (⟨(x 1).val, idx2_lt1 x⟩ : Fin 128) (by show 128 + 1 * (x 1).val = 128 + (x 1).val; omega)]
    refine congrArg P1 (funext fun a => Fin.ext ?_)
    match a with
    | ⟨0, _⟩ => show (x 0).val = 0 + 1 * (x 0).val; omega
    | ⟨1, _⟩ => rfl
  · show P0 x = featRow _ _ _ _ _
    rw [featRow_run0 _ _ _ _ _ (⟨(x 1).val, idx2_lt1 x⟩ : Fin 128) (by show 0 + 1 * (x 1).val = (x 1).val; omega)]
    refine congrArg P0 (funext fun a => Fin.ext ?_)
    match a with
    | ⟨0, _⟩ => show (x 0).val = 0 + 1 * (x 0).val; omega
    | ⟨1, _⟩ => rfl

/-- The output block after the body: the last layer's value over the joined feature block, the two weight blocks, the
    three bias blocks and the last weight block. -/
theorem body_value (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S4000x1 .i32) (harg4 : arg4.IsWhole) (arg5 : Memref sig .tc .vmem S64x128 .bf16) (harg5 : arg5.IsWhole) (arg6 : Memref sig .tc .vmem S512x512 .bf16) (harg6 : arg6.IsWhole) (arg7 : Memref sig .tc .vmem S1x512 .bf16) (harg7 : arg7.IsWhole) (arg8 : Memref sig .tc .vmem S512x512 .bf16) (harg8 : arg8.IsWhole) (arg9 : Memref sig .tc .vmem S1x512 .bf16) (harg9 : arg9.IsWhole) (arg10 : Memref sig .tc .vmem S512x128 .bf16) (harg10 : arg10.IsWhole) (arg11 : Memref sig .tc .vmem S1x128 .f32) (harg11 : arg11.IsWhole) (arg12 : Memref sig .tc .vmem S4000x128 .f32) (harg12 : arg12.IsWhole) (arg13 : Memref sig .tc .vmem S4000x512 .bf16) (harg13 : arg13.IsWhole)
    (x0 : Vec F S4000x128 .f32) (x1 : Vec F S4000x128 .f32) (x2 : Vec F S4000x128 .f32) (x3 : Vec F S4000x1 .i32) (x4 : Vec F S64x128 .bf16) (x5 : Vec F S512x512 .bf16) (x6 : Vec F S1x512 .bf16) (x7 : Vec F S512x512 .bf16) (x8 : Vec F S1x512 .bf16) (x9 : Vec F S512x128 .bf16) (x10 : Vec F S1x128 .f32) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
      = k0_pay1 (joinedRows (k0_pay2 x0) (k0_pay3 x1) (k0_pay4 x2) (k0_pay5 x3 x4)) x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S4000x128) hz, View.ld_unit_zero (S := S4000x1) hz, View.ld_unit_zero (S := S64x128) hz,
    View.ld_unit_zero (S := S512x512) hz, View.ld_unit_zero (S := S1x512) hz, View.ld_unit_zero (S := S512x128) hz,
    View.ld_unit_zero (S := S1x128) hz]
  exact congrArg (fun v => k0_pay1 v x5 x6 x7 x8 x9 x10)
    (scratch_read arg13.view (k0_pay2 x0) (k0_pay3 x1) (k0_pay4 x2) (k0_pay5 x3 x4))

end Cert.KernelIdeal.Body

end
-- ==== Proof.LibPlainMatmul.lean ====
/-
  A matrix product with the plain dimension numbers, read at one entry.

  `tpu.matmul` of an [M × K] left operand and a [K × N] right operand into the zero accumulator, contracting the left
  operand's columns with the right operand's rows and with no batch axis, is at entry (a, b) of its [M × N] result the
  sum over c of left (a, c) · right (c, b) on the extended reals. The dimension numbers are asked for only as an
  equation with `DotDims.plain M K N`, which a printed record of those numbers satisfies by unfolding.
-/
import Idealize.ShloMosaic.PureOps.Ideal.Laws
import Idealize.ShloMosaic.Lib.ValueIdx

noncomputable section

namespace Cert.PlainMatmul

open Idealize.ShloMosaic Idealize.ShloMosaic.ValueIdx

/-- The plain contraction at output entry (a, b) and contraction position c reads the left operand at (a, c). -/
theorem plain_lhsIdx {M K N : Nat} (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- … and the right operand at (c, b). -/
theorem plain_rhsIdx {M K N : Nat} (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A plain matrix product into the zero accumulator, at entry (a, b): the sum over the contracted coordinate of the
    products of the entries. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    FloatOps.matmul d prec A B (constant ⟨2, ![M, N]⟩ .f32 0x00000000#32) (ix2 a b) = ∑ c : Fin K, A (ix2 a c) * B (ix2 c b) := by
  subst hd
  rw [Ideal.matmul_constant_zero_apply, ← Equiv.sum_comp (contrEquiv1 (DotDims.plain M K N) K rfl rfl).symm]
  refine Finset.sum_congr rfl fun c _ => ?_
  rw [plain_lhsIdx, plain_rhsIdx]

end Cert.PlainMatmul

end
-- ==== Proof.KernelRow.lean ====
/-
  The body's values at one entry, over the extended reals.

  At row r of a block the last store's value is the model of `Mlp.lean` on the row's 512 joined features with the
  block's weights and bias rows: each matrix product into the zero accumulator is the sum over the contracted
  coordinate, a change of float format is the identity, a bias row broadcast down the block reads the bias entry, and
  the maximum with the zero splat is the rectifier. The fourth feature piece is the product of the 0/1 indicator "the
  row's id is k" with the 64 global rows: the global row the id names.
-/
import proofs.«423219_j55499567399386_3_alg».proof.Proof.Gen.KernelIdeal.Skeleton
import proofs.«423219_j55499567399386_3_alg».proof.Proof.Mlp
import proofs.«423219_j55499567399386_3_alg».proof.Proof.LibPlainMatmul
import Idealize.ShloMosaic.Lib.Pipeline.Value
import Idealize.ShloMosaic.Lib.ValueIdx

noncomputable section

open Idealize.ShloMosaic Idealize.ShloMosaic.ValueIdx

namespace Cert.KernelIdeal.Row

open Cert.KernelIdeal Cert.KernelIdeal.Gen Cert.EdgeMlp

/-- A [1 × 512] row broadcast down the 4000 rows of a block reads the row's entry. -/
theorem bcast_row512 (b : FVec Ideal S1x512 .bf16) (h : S1x512.Broadcasts S4000x512) (r : Fin 4000) (j : Fin 512) :
    broadcastTo S4000x512 b h (ix2 r j) = b (ix2 (0 : Fin 1) j) :=
  broadcastTo_apply b h (ix2 r j) (ix2 (0 : Fin 1) j) (fun a => match a with
    | ⟨0, _⟩ => by show (0 : Nat) = if (1 : Nat) = 1 then 0 else _; rw [if_pos rfl]
    | ⟨1, _⟩ => by show j.val = if (512 : Nat) = 1 then 0 else j.val; rw [if_neg (by decide)])

/-- A [1 × 128] row broadcast down the 4000 rows of a block reads the row's entry. -/
theorem bcast_row128 (b : FVec Ideal S1x128 .f32) (h : S1x128.Broadcasts S4000x128) (r : Fin 4000) (q : Fin 128) :
    broadcastTo S4000x128 b h (ix2 r q) = b (ix2 (0 : Fin 1) q) :=
  broadcastTo_apply b h (ix2 r q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- A [4000 × 1] column broadcast across 64 lanes reads the column's entry. -/
theorem bcast_col (x : IVec S4000x1 32) (h : S4000x1.Broadcasts S4000x64) (r : Fin 4000) (k : Fin 64) :
    broadcastTo S4000x64 x h (ix2 r k) = x (ix2 r (0 : Fin 1)) :=
  broadcastTo_apply x h (ix2 r k) (ix2 r (0 : Fin 1)) (fun a => match a with
    | ⟨0, _⟩ => by show r.val = if (4000 : Nat) = 1 then 0 else r.val; rw [if_neg (by decide)]
    | ⟨1, _⟩ => by show (0 : Nat) = if (1 : Nat) = 1 then 0 else _; rw [if_pos rfl])

/-- One rectified layer of a block at entry (r, j): max((Σ_k x_{r k} · W_{k j}) + b_j, 0). -/
theorem hidden_apply (d : DotDims S4000x512 S512x512 S4000x512) (hd : d = DotDims.plain 4000 512 512)
    (x : FVec Ideal S4000x512 .bf16) (W : FVec Ideal S512x512 .bf16) (b : FVec Ideal S1x512 .bf16)
    (hb : S1x512.Broadcasts S4000x512) (hlt : FTy.bits .bf16 < FTy.bits .f32) (r : Fin 4000) (j : Fin 512) :
    maximumf (addf (truncf .bf16 (FloatOps.matmul d none x W (constant S4000x512 .f32 0x00000000#32)) hlt) (broadcastTo S4000x512 b hb))
        (broadcast S4000x512 (Scalar.ofBits (F := Ideal) .bf16 0x0000#16)) (ix2 r j)
      = max ((∑ k : Fin 512, x (ix2 r k) * W (ix2 k j)) + b (ix2 (0 : Fin 1) j)) 0 := by
  rw [maximumf_apply, addf_apply, truncf_apply, broadcast_apply, bcast_row512, Cert.PlainMatmul.matmul_zero_apply d hd]
  show max _ (Ideal.ofBits .bf16 0x0000#16) = _
  rw [ofBits_zero_bf16]

/-- The last store's value at entry (r, q): the model on row r's features. -/
theorem pay1_apply (v30 : Vec Ideal S4000x512 .bf16) (v31 : Vec Ideal S512x512 .bf16) (v35 : Vec Ideal S1x512 .bf16)
    (v41 : Vec Ideal S512x512 .bf16) (v45 : Vec Ideal S1x512 .bf16) (v51 : Vec Ideal S512x128 .bf16)
    (v54 : Vec Ideal S1x128 .f32) (r : Fin 4000) (q : Fin 128) :
    k0_pay1 (F := Ideal) v30 v31 v35 v41 v45 v51 v54 (ix2 r q)
      = mlp (fun k => v30 (ix2 r k)) (fun k j => v31 (ix2 k j)) (fun j => v35 (ix2 (0 : Fin 1) j))
          (fun k j => v41 (ix2 k j)) (fun j => v45 (ix2 (0 : Fin 1) j)) (fun k j => v51 (ix2 k j))
          (fun j => v54 (ix2 (0 : Fin 1) j)) q := by
  have H := hidden_apply dot_S4000x512_S512x512_S4000x512_1_0_0_1_n_n rfl
  unfold k0_pay1
  simp only [shapeCast_self, matmul]
  rw [addf_apply, bcast_row128, Cert.PlainMatmul.matmul_zero_apply dot_S4000x512_S512x128_S4000x128_1_0_0_1_n_n rfl]
  simp only [H]
  rfl

/-- The gathered piece at entry (r, q), when the row's id word is the word of row ρ: the global row ρ at q. -/
theorem pay5_apply (x3 : Vec Ideal S4000x1 .i32) (x4 : Vec Ideal S64x128 .bf16) (r : Fin 4000) (q : Fin 128) (ρ : Fin 64)
    (hρ : x3 (ix2 r (0 : Fin 1)) = BitVec.ofNat 32 ρ.val) :
    k0_pay5 (F := Ideal) x3 x4 (ix2 r q) = x4 (ix2 ρ q) := by
  unfold k0_pay5
  simp only [shapeCast_self, matmul]
  rw [truncf_apply, Cert.PlainMatmul.matmul_zero_apply dot_S4000x64_S64x128_S4000x128_1_0_0_1_n_n rfl]
  have hterm : ∀ k : Fin 64,
      (truncf .bf16 (sitofp .f32 (extui 32 (cmpi .eq (broadcastTo S4000x64 x3 broadcasts_S4000x1_S4000x64)
        (iota .tc S4000x64 32 [1] iota_S4000x64_d1_w32)) natLt_1_32)) bitsLt_bf16_f32 : FVec Ideal S4000x64 .bf16) (ix2 r k)
        = if k = ρ then 1 else 0 := by
    intro k
    rw [truncf_apply, sitofp_apply, extui_apply]
    show ((((IntOp.cmpi .eq (broadcastTo S4000x64 x3 broadcasts_S4000x1_S4000x64 (ix2 r k))
      (iota .tc S4000x64 32 [1] iota_S4000x64_d1_w32 (ix2 r k))).setWidth 32).toInt : ℝ) : EReal) = _
    rw [bcast_col, hρ, iota_single_apply]
    exact indicator_eq ρ k
  simp only [hterm]
  exact sum_indicator ρ (fun k => x4 (ix2 k q))

/-- A narrowed block entry is the entry. -/
theorem pay2_apply (x : Vec Ideal S4000x128 .f32) (i : S4000x128.Idx) : k0_pay2 (F := Ideal) x i = x i := by
  unfold k0_pay2; simp only [shapeCast_self]; rfl
theorem pay3_apply (x : Vec Ideal S4000x128 .f32) (i : S4000x128.Idx) : k0_pay3 (F := Ideal) x i = x i := by
  unfold k0_pay3; simp only [shapeCast_self]; rfl
theorem pay4_apply (x : Vec Ideal S4000x128 .f32) (i : S4000x128.Idx) : k0_pay4 (F := Ideal) x i = x i := by
  unfold k0_pay4; simp only [shapeCast_self]; rfl

end Cert.KernelIdeal.Row

end
-- ==== Proof.KernelHost.lean ====
/-
  The arrays the grid finds, as functions of the arguments.

  Before the grid starts the host narrows the float arguments (the identity on extended reals), gives the three bias
  vectors a leading unit axis, and turns each edge's id into the word of its global row: wrap a negative id by 64, clamp
  the result between 0 and 63, and give the column a trailing unit axis.
-/
import proofs.«423219_j55499567399386_3_alg».proof.Proof.Gen.KernelIdeal.Frame
import proofs.«423219_j55499567399386_3_alg».proof.Proof.Mlp
import Idealize.ShloMosaic.Lib.Pipeline.Value
import Idealize.ShloMosaic.Lib.StableHlo.Run
import Idealize.ShloMosaic.PureOps.Ideal

noncomputable section

open Idealize.ShloMosaic Idealize.ShloMosaic.TcCoe Idealize.SL.Sem Idealize.ShloMosaic.StableHlo Idealize.ShloMosaic.ValueIdx

namespace Cert.KernelIdeal.Host

open Cert.KernelIdeal Cert.KernelIdeal.Gen Cert.EdgeMlp

variable (m : (ℓ : Loc nD τ sig) → Buf (Elt Ideal) ℓ)

/-- Open the host operations before the grid down to one buffer's term. -/
local macro "host_prefix" : tactic => `(tactic| (
  dsimp only [Gen.V]
  simp only [Gen.hostOps0, Gen.hostOps0_1, Gen.hostOps0_2, Gen.hostOps0_3, Gen.hostOps0_4, List.flatten_cons, List.flatten_nil,
    List.append_nil, List.cons_append, List.nil_append]
  after_results))

/-- The narrowed global rows are the global rows. -/
theorem V_u (c : Dev nD) : (V m c main_v3 : S64x128.Idx → EReal) = m ((c : Thread nD τ).loc main_arg3) := by
  host_prefix; rfl

/-- The narrowed weights are the weights. -/
theorem V_W1 (c : Dev nD) : (V m c main_v0 : S512x512.Idx → EReal) = m ((c : Thread nD τ).loc main_arg5) := by
  host_prefix; rfl
theorem V_W2 (c : Dev nD) : (V m c main_v1 : S512x512.Idx → EReal) = m ((c : Thread nD τ).loc main_arg7) := by
  host_prefix; rfl
theorem V_W3 (c : Dev nD) : (V m c main_v2 : S512x128.Idx → EReal) = m ((c : Thread nD τ).loc main_arg9) := by
  host_prefix; rfl

/-- The bias rows: entry (0, j) of the [1 × n] row is entry j of the bias vector. -/
theorem V_b1 (c : Dev nD) (j : Fin 512) :
    (V m c main_v5 : S1x512.Idx → EReal) (ix2 (0 : Fin 1) j) = (m ((c : Thread nD τ).loc main_arg6) : S512.Idx → EReal) (ix1 j) := by
  have e0 : (V m c main_v5 : S1x512.Idx → EReal)
      = shapeCast S1x512 (m ((c : Thread nD τ).loc main_arg6) : S512.Idx → EReal) shapeCasts_S512_S1x512 := by
    host_prefix; rfl
  rw [e0]
  exact shapeCast_apply _ _ (ix2 (0 : Fin 1) j) (ix1 j) (by
    rw [Shape.rowMajor_val_one, Shape.rowMajor_val_two]; show j.val = 0 * 512 + j.val; omega)

theorem V_b2 (c : Dev nD) (j : Fin 512) :
    (V m c main_v7 : S1x512.Idx → EReal) (ix2 (0 : Fin 1) j) = (m ((c : Thread nD τ).loc main_arg8) : S512.Idx → EReal) (ix1 j) := by
  have e0 : (V m c main_v7 : S1x512.Idx → EReal)
      = shapeCast S1x512 (m ((c : Thread nD τ).loc main_arg8) : S512.Idx → EReal) shapeCasts_S512_S1x512 := by
    host_prefix; rfl
  rw [e0]
  exact shapeCast_apply _ _ (ix2 (0 : Fin 1) j) (ix1 j) (by
    rw [Shape.rowMajor_val_one, Shape.rowMajor_val_two]; show j.val = 0 * 512 + j.val; omega)

theorem V_b3 (c : Dev nD) (q : Fin 128) :
    (V m c main_v8 : S1x128.Idx → EReal) (ix2 (0 : Fin 1) q) = (m ((c : Thread nD τ).loc main_arg10) : S128.Idx → EReal) (ix1 q) := by
  have e0 : (V m c main_v8 : S1x128.Idx → EReal)
      = shapeCast S1x128 (m ((c : Thread nD τ).loc main_arg10) : S128.Idx → EReal) shapeCasts_S128_S1x128 := by
    host_prefix; rfl
  rw [e0]
  exact shapeCast_apply _ _ (ix2 (0 : Fin 1) q) (ix1 q) (by
    rw [Shape.rowMajor_val_one, Shape.rowMajor_val_two]; show q.val = 0 * 128 + q.val; omega)

set_option maxHeartbeats 4000000 in
/-- The id column: entry (e, 0) is the word of the global row edge e's id names. -/
theorem V_ids (c : Dev nD) (e : Fin 500000) :
    (V m c main_v15 : S500000x1.Idx → BitVec 32) (ix2 e (0 : Fin 1))
      = BitVec.ofNat 32 (graphRow ((m ((c : Thread nD τ).loc main_arg4) : S500000.Idx → BitVec 32) (ix1 e))).val := by
  have e0 : (V m c main_v15 : S500000x1.Idx → BitVec 32)
      = shapeCast S500000x1
          (minsi (broadcastInDim S500000 ![] bcast_S_S500000 (constantI S_ 32 63#32))
            (maxsi (broadcastInDim S500000 ![] bcast_S_S500000 (constantI S_ 32 0#32))
              (select (cmpi .slt (m ((c : Thread nD τ).loc main_arg4) : S500000.Idx → BitVec 32) (broadcastInDim S500000 ![] bcast_S_S500000 (constantI S_ 32 0#32)))
                (addi (m ((c : Thread nD τ).loc main_arg4) : S500000.Idx → BitVec 32) (broadcastInDim S500000 ![] bcast_S_S500000 (constantI S_ 32 64#32)))
                (m ((c : Thread nD τ).loc main_arg4) : S500000.Idx → BitVec 32))))
          shapeCasts_S500000_S500000x1 := by
    host_prefix; rfl
  rw [e0, shapeCast_apply _ _ (ix2 e (0 : Fin 1)) (ix1 e) (by
    rw [Shape.rowMajor_val_one, Shape.rowMajor_val_two]; show e.val = e.val * 1 + 0; omega)]
  exact clip_eq _

end Cert.KernelIdeal.Host

end
-- ==== Proof.KernelValue.lean ====
/-
  The kernel's result array is the specification's.

  Grid point t works on edges 4000·t … 4000·t + 3999: its three feature blocks and its id block are rows 4000·t + r of
  their arrays, the global rows, the weights and the bias rows are the whole arrays at every point, and the block it
  writes back is rows 4000·t + r of the result. So what point t writes back is block t of the specification's array,
  and the 125 blocks cover the array: edge e lies in block e / 4000.
-/
import proofs.«423219_j55499567399386_3_alg».proof.Proof.Gen.KernelIdeal.Value
import proofs.«423219_j55499567399386_3_alg».proof.Proof.KernelBody
import proofs.«423219_j55499567399386_3_alg».proof.Proof.KernelRow
import proofs.«423219_j55499567399386_3_alg».proof.Proof.KernelHost
import proofs.«423219_j55499567399386_3_alg».proof.Proof.Mlp

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.EdgeMlp Cert.KernelIdeal.Body Cert.KernelIdeal.Row Cert.KernelIdeal.Host

variable (m : (ℓ : Loc nD τ sig) → Buf (Elt Ideal) ℓ) (ρ : Dev nD → PrngReg)

/-- Edge r of block T. -/
def edgeAt (T : Nat) (hT : T < 125) (r : Fin 4000) : Fin 500000 := ⟨4000 * T + r.val, by have := r.isLt; omega⟩

/-! ## One point, over any blocks that are the stated rows of any arrays -/

/-- If the blocks a point loads are the rows 4000·T + r of the feature arrays, the global-row words of those rows' ids,
    and the whole global rows, weights and bias rows, then the value it stores is rows 4000·T + r of the specification. -/
theorem point_value (T : Nat) (hT : T < 125)
    (x0 x1 x2 : Vec Ideal S4000x128 .f32) (x3 : Vec Ideal S4000x1 .i32) (x4 : Vec Ideal S64x128 .bf16)
    (x5 : Vec Ideal S512x512 .bf16) (x6 : Vec Ideal S1x512 .bf16) (x7 : Vec Ideal S512x512 .bf16) (x8 : Vec Ideal S1x512 .bf16)
    (x9 : Vec Ideal S512x128 .bf16) (x10 : Vec Ideal S1x128 .f32)
    (A0 A1 A2 : S500000x128.Idx → EReal) (U : S64x128.Idx → EReal) (ids : S500000.Idx → BitVec 32)
    (W1 : S512x512.Idx → EReal) (b1 : S512.Idx → EReal) (W2 : S512x512.Idx → EReal) (b2 : S512.Idx → EReal)
    (W3 : S512x128.Idx → EReal) (b3 : S128.Idx → EReal)
    (h0 : ∀ (r : Fin 4000) (q : Fin 128), x0 (ix2 r q) = A0 (ix2 (edgeAt T hT r) q))
    (h1 : ∀ (r : Fin 4000) (q : Fin 128), x1 (ix2 r q) = A1 (ix2 (edgeAt T hT r) q))
    (h2 : ∀ (r : Fin 4000) (q : Fin 128), x2 (ix2 r q) = A2 (ix2 (edgeAt T hT r) q))
    (h3 : ∀ r : Fin 4000, x3 (ix2 r (0 : Fin 1)) = BitVec.ofNat 32 (graphRow (ids (ix1 (edgeAt T hT r)))).val)
    (h4 : ∀ (k : Fin 64) (q : Fin 128), x4 (ix2 k q) = U (ix2 k q))
    (h5 : ∀ (k j : Fin 512), x5 (ix2 k j) = W1 (ix2 k j))
    (h6 : ∀ j : Fin 512, x6 (ix2 (0 : Fin 1) j) = b1 (ix1 j))
    (h7 : ∀ (k j : Fin 512), x7 (ix2 k j) = W2 (ix2 k j))
    (h8 : ∀ j : Fin 512, x8 (ix2 (0 : Fin 1) j) = b2 (ix1 j))
    (h9 : ∀ (k : Fin 512) (q : Fin 128), x9 (ix2 k q) = W3 (ix2 k q))
    (h10 : ∀ q : Fin 128, x10 (ix2 (0 : Fin 1) q) = b3 (ix1 q))
    (y : S4000x128.Idx) :
    k0_pay1 (F := Ideal) (joinedRows (k0_pay2 x0) (k0_pay3 x1) (k0_pay4 x2) (k0_pay5 x3 x4)) x5 x6 x7 x8 x9 x10 y
      = edgeOut A0 A1 A2 U ids W1 b1 W2 b2 W3 b3
          (ix2 (edgeAt T hT ⟨(y 0).val, idx2_lt0 y⟩) (⟨(y 1).val, idx2_lt1 y⟩ : Fin 128)) := by
  obtain ⟨r, q, rfl⟩ : ∃ (r : Fin 4000) (q : Fin 128), y = ix2 r q := ⟨y 0, y 1, eq_ix2 y⟩
  rw [pay1_apply]
  have hf : (fun k : Fin 512 => joinedRows (k0_pay2 (F := Ideal) x0) (k0_pay3 (F := Ideal) x1) (k0_pay4 (F := Ideal) x2) (k0_pay5 (F := Ideal) x3 x4) (ix2 r k))
      = featRow (fun q => A0 (ix2 (edgeAt T hT r) q)) (fun q => A1 (ix2 (edgeAt T hT r) q)) (fun q => A2 (ix2 (edgeAt T hT r) q))
          (fun q => U (ix2 (graphRow (ids (ix1 (edgeAt T hT r)))) q)) := by
    funext k
    show featRow _ _ _ _ k = featRow _ _ _ _ k
    congr 1
    · funext q; rw [pay2_apply]; exact h0 r q
    · funext q; rw [pay3_apply]; exact h1 r q
    · funext q; rw [pay4_apply]; exact h2 r q
    · funext q; rw [pay5_apply x3 x4 _ q (graphRow (ids (ix1 (edgeAt T hT r)))) (h3 r)]; exact h4 _ q
  have e5 : (fun k j : Fin 512 => x5 (ix2 k j)) = fun k j => W1 (ix2 k j) := funext fun k => funext fun j => h5 k j
  have e6 : (fun j : Fin 512 => x6 (ix2 (0 : Fin 1) j)) = fun j => b1 (ix1 j) := funext fun j => h6 j
  have e7 : (fun k j : Fin 512 => x7 (ix2 k j)) = fun k j => W2 (ix2 k j) := funext fun k => funext fun j => h7 k j
  have e8 : (fun j : Fin 512 => x8 (ix2 (0 : Fin 1) j)) = fun j => b2 (ix1 j) := funext fun j => h8 j
  have e9 : (fun (k : Fin 512) (j : Fin 128) => x9 (ix2 k j)) = fun k j => W3 (ix2 k j) := funext fun k => funext fun j => h9 k j
  have e10 : (fun j : Fin 128 => x10 (ix2 (0 : Fin 1) j)) = fun j => b3 (ix1 j) := funext fun j => h10 j
  rw [hf, e5, e6, e7, e8, e9, e10]
  rfl

/-! ## The printed index maps, decided over the 125 points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

theorem point_lt (t : Fin cfg0.N) : t.val < 125 := by
  have hN : cfg0.N = 125 := N_0
  have := t.isLt
  omega

/-! ## The blocks a point loads, as rows of the arguments -/

theorem blk0 (c : Dev nD) (t : Fin cfg0.N) (r : Fin 4000) (q : Fin 128) :
    (iblk m c 0 t : Vec Ideal S4000x128 .f32) (ix2 r q)
      = (m ((c : Thread nD τ).loc main_arg0) : S500000x128.Idx → EReal) (ix2 (edgeAt t.val (point_lt t) r) q) := by
  obtain ⟨e00, e01, -⟩ := idx_facts t
  show (V m c main_arg0 : S500000x128.Idx → EReal) (((cfg0.win 0).blk t).view.emb (ix2 r q)) = _
  rw [V_main_arg0]
  refine congrArg _ (funext fun a => Fin.ext ?_)
  match a with
  | ⟨0, _⟩ => show win0_0.index t (0 : Fin 2) * 4000 + 1 * r.val = 4000 * t.val + r.val; omega
  | ⟨1, _⟩ => show win0_0.index t (1 : Fin 2) * 128 + 1 * q.val = q.val; omega

theorem blk1 (c : Dev nD) (t : Fin cfg0.N) (r : Fin 4000) (q : Fin 128) :
    (iblk m c 1 t : Vec Ideal S4000x128 .f32) (ix2 r q)
      = (m ((c : Thread nD τ).loc main_arg1) : S500000x128.Idx → EReal) (ix2 (edgeAt t.val (point_lt t) r) q) := by
  obtain ⟨-, -, e10, e11, -⟩ := idx_facts t
  show (V m c main_arg1 : S500000x128.Idx → EReal) (((cfg0.win 1).blk t).view.emb (ix2 r q)) = _
  rw [V_main_arg1]
  refine congrArg _ (funext fun a => Fin.ext ?_)
  match a with
  | ⟨0, _⟩ => show win0_1.index t (0 : Fin 2) * 4000 + 1 * r.val = 4000 * t.val + r.val; omega
  | ⟨1, _⟩ => show win0_1.index t (1 : Fin 2) * 128 + 1 * q.val = q.val; omega

theorem blk2 (c : Dev nD) (t : Fin cfg0.N) (r : Fin 4000) (q : Fin 128) :
    (iblk m c 2 t : Vec Ideal S4000x128 .f32) (ix2 r q)
      = (m ((c : Thread nD τ).loc main_arg2) : S500000x128.Idx → EReal) (ix2 (edgeAt t.val (point_lt t) r) q) := by
  obtain ⟨-, -, -, -, e20, e21, -⟩ := idx_facts t
  show (V m c main_arg2 : S500000x128.Idx → EReal) (((cfg0.win 2).blk t).view.emb (ix2 r q)) = _
  rw [V_main_arg2]
  refine congrArg _ (funext fun a => Fin.ext ?_)
  match a with
  | ⟨0, _⟩ => show win0_2.index t (0 : Fin 2) * 4000 + 1 * r.val = 4000 * t.val + r.val; omega
  | ⟨1, _⟩ => show win0_2.index t (1 : Fin 2) * 128 + 1 * q.val = q.val; omega

theorem blk3 (c : Dev nD) (t : Fin cfg0.N) (r : Fin 4000) :
    (iblk m c 3 t : Vec Ideal S4000x1 .i32) (ix2 r (0 : Fin 1))
      = BitVec.ofNat 32 (graphRow ((m ((c : Thread nD τ).loc main_arg4) : S500000.Idx → BitVec 32) (ix1 (edgeAt t.val (point_lt t) r)))).val := by
  obtain ⟨-, -, -, -, -, -, e30, e31, -⟩ := idx_facts t
  rw [← V_ids m c (edgeAt t.val (point_lt t) r)]
  show (V m c main_v15 : S500000x1.Idx → BitVec 32) (((cfg0.win 3).blk t).view.emb (ix2 r (0 : Fin 1))) = _
  refine congrArg _ (funext fun a => Fin.ext ?_)
  match a with
  | ⟨0, _⟩ => show win0_3.index t (0 : Fin 2) * 4000 + 1 * r.val = 4000 * t.val + r.val; omega
  | ⟨1, _⟩ => show win0_3.index t (1 : Fin 2) * 1 + 1 * 0 = 0; omega

theorem blk4 (c : Dev nD) (t : Fin cfg0.N) (k : Fin 64) (q : Fin 128) :
    (iblk m c 4 t : Vec Ideal S64x128 .bf16) (ix2 k q)
      = (m ((c : Thread nD τ).loc main_arg3) : S64x128.Idx → EReal) (ix2 k q) := by
  obtain ⟨-, -, -, -, -, -, -, -, e40, e41, -⟩ := idx_facts t
  rw [← V_u m c]
  show (V m c main_v3 : S64x128.Idx → EReal) (((cfg0.win 4).blk t).view.emb (ix2 k q)) = _
  refine congrArg _ (funext fun a => Fin.ext ?_)
  match a with
  | ⟨0, _⟩ => show win0_4.index t (0 : Fin 2) * 64 + 1 * k.val = k.val; omega
  | ⟨1, _⟩ => show win0_4.index t (1 : Fin 2) * 128 + 1 * q.val = q.val; omega

theorem blk5 (c : Dev nD) (t : Fin cfg0.N) (k j : Fin 512) :
    (iblk m c 5 t : Vec Ideal S512x512 .bf16) (ix2 k j)
      = (m ((c : Thread nD τ).loc main_arg5) : S512x512.Idx → EReal) (ix2 k j) := by
  obtain ⟨-, -, -, -, -, -, -, -, -, -, e50, e51, -⟩ := idx_facts t
  rw [← V_W1 m c]
  show (V m c main_v0 : S512x512.Idx → EReal) (((cfg0.win 5).blk t).view.emb (ix2 k j)) = _
  refine congrArg _ (funext fun a => Fin.ext ?_)
  match a with
  | ⟨0, _⟩ => show win0_5.index t (0 : Fin 2) * 512 + 1 * k.val = k.val; omega
  | ⟨1, _⟩ => show win0_5.index t (1 : Fin 2) * 512 + 1 * j.val = j.val; omega

theorem blk6 (c : Dev nD) (t : Fin cfg0.N) (j : Fin 512) :
    (iblk m c 6 t : Vec Ideal S1x512 .bf16) (ix2 (0 : Fin 1) j)
      = (m ((c : Thread nD τ).loc main_arg6) : S512.Idx → EReal) (ix1 j) := by
  obtain ⟨-, -, -, -, -, -, -, -, -, -, -, -, e60, e61, -⟩ := idx_facts t
  rw [← V_b1 m c j]
  show (V m c main_v5 : S1x512.Idx → EReal) (((cfg0.win 6).blk t).view.emb (ix2 (0 : Fin 1) j)) = _
  refine congrArg _ (funext fun a => Fin.ext ?_)
  match a with
  | ⟨0, _⟩ => show win0_6.index t (0 : Fin 2) * 1 + 1 * 0 = 0; omega
  | ⟨1, _⟩ => show win0_6.index t (1 : Fin 2) * 512 + 1 * j.val = j.val; omega

theorem blk7 (c : Dev nD) (t : Fin cfg0.N) (k j : Fin 512) :
    (iblk m c 7 t : Vec Ideal S512x512 .bf16) (ix2 k j)
      = (m ((c : Thread nD τ).loc main_arg7) : S512x512.Idx → EReal) (ix2 k j) := by
  obtain ⟨-, -, -, -, -, -, -, -, -, -, -, -, -, -, e70, e71, -⟩ := idx_facts t
  rw [← V_W2 m c]
  show (V m c main_v1 : S512x512.Idx → EReal) (((cfg0.win 7).blk t).view.emb (ix2 k j)) = _
  refine congrArg _ (funext fun a => Fin.ext ?_)
  match a with
  | ⟨0, _⟩ => show win0_7.index t (0 : Fin 2) * 512 + 1 * k.val = k.val; omega
  | ⟨1, _⟩ => show win0_7.index t (1 : Fin 2) * 512 + 1 * j.val = j.val; omega

theorem blk8 (c : Dev nD) (t : Fin cfg0.N) (j : Fin 512) :
    (iblk m c 8 t : Vec Ideal S1x512 .bf16) (ix2 (0 : Fin 1) j)
      = (m ((c : Thread nD τ).loc main_arg8) : S512.Idx → EReal) (ix1 j) := by
  obtain ⟨-, -, -, -, -, -, -, -, -, -, -, -, -, -, -, -, e80, e81, -⟩ := idx_facts t
  rw [← V_b2 m c j]
  show (V m c main_v7 : S1x512.Idx → EReal) (((cfg0.win 8).blk t).view.emb (ix2 (0 : Fin 1) j)) = _
  refine congrArg _ (funext fun a => Fin.ext ?_)
  match a with
  | ⟨0, _⟩ => show win0_8.index t (0 : Fin 2) * 1 + 1 * 0 = 0; omega
  | ⟨1, _⟩ => show win0_8.index t (1 : Fin 2) * 512 + 1 * j.val = j.val; omega

theorem blk9 (c : Dev nD) (t : Fin cfg0.N) (k : Fin 512) (q : Fin 128) :
    (iblk m c 9 t : Vec Ideal S512x128 .bf16) (ix2 k q)
      = (m ((c : Thread nD τ).loc main_arg9) : S512x128.Idx → EReal) (ix2 k q) := by
  obtain ⟨-, -, -, -, -, -, -, -, -, -, -, -, -, -, -, -, -, -, e90, e91, -⟩ := idx_facts t
  rw [← V_W3 m c]
  show (V m c main_v2 : S512x128.Idx → EReal) (((cfg0.win 9).blk t).view.emb (ix2 k q)) = _
  refine congrArg _ (funext fun a => Fin.ext ?_)
  match a with
  | ⟨0, _⟩ => show win0_9.index t (0 : Fin 2) * 512 + 1 * k.val = k.val; omega
  | ⟨1, _⟩ => show win0_9.index t (1 : Fin 2) * 128 + 1 * q.val = q.val; omega

theorem blk10 (c : Dev nD) (t : Fin cfg0.N) (q : Fin 128) :
    (iblk m c 10 t : Vec Ideal S1x128 .f32) (ix2 (0 : Fin 1) q)
      = (m ((c : Thread nD τ).loc main_arg10) : S128.Idx → EReal) (ix1 q) := by
  obtain ⟨-, -, -, -, -, -, -, -, -, -, -, -, -, -, -, -, -, -, -, -, e100, e101, -⟩ := idx_facts t
  rw [← V_b3 m c q]
  show (V m c main_v8 : S1x128.Idx → EReal) (((cfg0.win 10).blk t).view.emb (ix2 (0 : Fin 1) q)) = _
  refine congrArg _ (funext fun a => Fin.ext ?_)
  match a with
  | ⟨0, _⟩ => show win0_10.index t (0 : Fin 2) * 1 + 1 * 0 = 0; omega
  | ⟨1, _⟩ => show win0_10.index t (1 : Fin 2) * 128 + 1 * q.val = q.val; omega

/-! ## The result array -/

/-- The specification's array of the arguments as launched. -/
abbrev result (c : Dev nD) : Buf (Elt Ideal) ((c : Thread nD τ).loc main_v16) :=
  edgeOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- What point t writes back is block t of the specification's array. -/
theorem flushed_eq (c : Dev nD) (t : Fin cfg0.N) :
    (dats m 0 c).flushed 11 t = ((cfg0.win 11).blk t).view.read (Elt Ideal) (result m c) := by
  obtain ⟨-, -, -, -, -, -, -, -, -, -, -, -, -, -, -, -, -, -, -, -, -, -, e110, e111⟩ := idx_facts t
  rw [Cert.KernelIdeal.Value.flushed11_A, body_value]
  funext j
  show k0_pay1 (F := Ideal) (joinedRows (k0_pay2 (iblk m c 0 t)) (k0_pay3 (iblk m c 1 t)) (k0_pay4 (iblk m c 2 t)) (k0_pay5 (iblk m c 3 t) (iblk m c 4 t)))
      (iblk m c 5 t) (iblk m c 6 t) (iblk m c 7 t) (iblk m c 8 t) (iblk m c 9 t) (iblk m c 10 t) j
    = result m c (((cfg0.win 11).blk t).view.emb j)
  refine (point_value t.val (point_lt t) (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))
    (blk0 m c t) (blk1 m c t) (blk2 m c t) (blk3 m c t) (blk4 m c t) (blk5 m c t) (blk6 m c t) (blk7 m c t) (blk8 m c t)
    (blk9 m c t) (blk10 m c t) j).trans ?_
  refine congrArg (result m c) (funext fun a => Fin.ext ?_)
  match a with
  | ⟨0, _⟩ => show 4000 * t.val + (j 0).val = win0_11.index t (0 : Fin 2) * 4000 + 1 * (j 0).val; omega
  | ⟨1, _⟩ => show (j 1).val = win0_11.index t (1 : Fin 2) * 128 + 1 * (j 1).val; omega

/-- An index of the result array is in point t's block iff each coordinate is in the block's range on its axis. -/
theorem mem_blk (t : Fin cfg0.N) (i : S500000x128.Idx) :
    i ∈ ((cfg0.win 11).blk t).view.set ↔ ∀ a : Fin 2, win0_11.index t a * S4000x128.size a ≤ (i a).val ∧ (i a).val < win0_11.index t a * S4000x128.size a + S4000x128.size a := by
  show i ∈ ((View.whole main_v16).slice (win0_11.rect t)).set ↔ _
  rw [View.set_slice_whole, Rect.mem_set_unit]
  exact Iff.rfl

/-- The array after the run: the specification's. -/
theorem final (c : Dev nD) : (dats m 0 c).arrAt 11 cfg0.N = result m c :=
  (dats m 0 c).arrAt_eq_of_cover 11 (result m c) (fun t _ => flushed_eq m c t) fun i => by
    have hi0 : (i 0).val < 500000 := (i 0).isLt
    have hi1 : (i 1).val < 128 := (i 1).isLt
    have hN : cfg0.N = 125 := N_0
    obtain ⟨t, ht⟩ : ∃ t : Fin cfg0.N, t.val = (i 0).val / 4000 := ⟨⟨(i 0).val / 4000, by rw [hN]; omega⟩, rfl⟩
    obtain ⟨-, -, -, -, -, -, -, -, -, -, -, -, -, -, -, -, -, -, -, -, -, -, e110, e111⟩ := idx_facts t
    refine ⟨t, flush0_11 t, ?_⟩
    rw [mem_blk]
    intro a
    match a with
    | ⟨0, _⟩ => show win0_11.index t (0 : Fin 2) * 4000 ≤ (i 0).val ∧ (i 0).val < win0_11.index t (0 : Fin 2) * 4000 + 4000; omega
    | ⟨1, _⟩ => show win0_11.index t (1 : Fin 2) * 128 ≤ (i 1).val ∧ (i 1).val < win0_11.index t (1 : Fin 2) * 128 + 128; omega

/-! ## The run, read -/

/-- Every weakly fair execution of the kernel's program ends with the result array at the specification's array of the
    arguments and the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Result

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.Reference.lean ====
/-
  The reference's result is the specification's array.

  Read one operation at a time: the index column is each id wrapped; the row gather reads the global row at the
  wrapped id read signed and clamped; the concatenation along the columns puts the four runs side by side; each
  `dot_general` is the sum over the contracted coordinate; the bias rows are broadcast down the rows; the rectifier is
  the maximum with the zero splat.
-/
import proofs.«423219_j55499567399386_3_alg».proof.Proof.Gen.ReferenceIdeal.Read
import proofs.«423219_j55499567399386_3_alg».proof.Proof.Mlp
import proofs.«423219_j55499567399386_3_alg».proof.Proof.LibRowGatherScatter
import Idealize.ShloMosaic.Lib.Pipeline.Value

noncomputable section

open Idealize.ShloMosaic Idealize.ShloMosaic.ValueIdx

namespace Cert.ReferenceIdeal.RefValue

open Cert.ReferenceIdeal Cert.ReferenceIdeal.Read Cert.EdgeMlp

/-! ## The index maps of the layout operations, by coordinates -/

theorem l18 (e : Fin 500000) (q : Fin 128) (k : Fin 512) : lidx_main_v18 (ix2 e q) k = ix2 e k :=
  funext fun a => Fin.ext (by match a with | ⟨0, _⟩ => rfl | ⟨1, _⟩ => rfl)
theorem r18 (e : Fin 500000) (q : Fin 128) (k : Fin 512) : ridx_main_v18 (ix2 e q) k = ix2 k q :=
  funext fun a => Fin.ext (by match a with | ⟨0, _⟩ => rfl | ⟨1, _⟩ => rfl)
theorem l13 (e : Fin 500000) (j : Fin 512) (k : Fin 512) : lidx_main_v13 (ix2 e j) k = ix2 e k :=
  funext fun a => Fin.ext (by match a with | ⟨0, _⟩ => rfl | ⟨1, _⟩ => rfl)
theorem r13 (e : Fin 500000) (j : Fin 512) (k : Fin 512) : ridx_main_v13 (ix2 e j) k = ix2 k j :=
  funext fun a => Fin.ext (by match a with | ⟨0, _⟩ => rfl | ⟨1, _⟩ => rfl)
theorem l8 (e : Fin 500000) (j : Fin 512) (k : Fin 512) : lidx_main_v8 (ix2 e j) k = ix2 e k :=
  funext fun a => Fin.ext (by match a with | ⟨0, _⟩ => rfl | ⟨1, _⟩ => rfl)
theorem r8 (e : Fin 500000) (j : Fin 512) (k : Fin 512) : ridx_main_v8 (ix2 e j) k = ix2 k j :=
  funext fun a => Fin.ext (by match a with | ⟨0, _⟩ => rfl | ⟨1, _⟩ => rfl)
theorem i20 (e : Fin 500000) (q : Fin 128) : idx_main_v19 (idx_main_v20 (ix2 e q)) = ix1 q :=
  funext fun a => Fin.ext (by match a with | ⟨0, _⟩ => rfl)
theorem i15 (e : Fin 500000) (j : Fin 512) : idx_main_v14 (idx_main_v15 (ix2 e j)) = ix1 j :=
  funext fun a => Fin.ext (by match a with | ⟨0, _⟩ => rfl)
theorem i10 (e : Fin 500000) (j : Fin 512) : idx_main_v9 (idx_main_v10 (ix2 e j)) = ix1 j :=
  funext fun a => Fin.ext (by match a with | ⟨0, _⟩ => rfl)
theorem i5 (e : Fin 500000) : idx_main_v5 (ix2 e (0 : Fin 1)) = ix1 e :=
  funext fun a => Fin.ext (by match a with | ⟨0, _⟩ => rfl)

/-! ## The gathered rows and the joined features -/

/-- The index column at edge e: the edge's id, wrapped. -/
theorem idx_col (x4 : (⟨S500000, .i32⟩ : BufTy).Contents (Elt Ideal)) (e : Fin 500000) :
    val_main_v5 (F := Ideal) x4 (ix2 e (0 : Fin 1)) = wrapId (x4 (ix1 e)) := by
  rw [val_main_v5_apply, val_main_v4_apply, val_main_v1_apply, val_main_v3_apply, val_main_v0_apply, val_main_v2_apply,
    val_main_c_apply, val_main_c_0_apply, i5]
  rfl

/-- The gathered row of edge e: the global row its id names. -/
theorem gather_apply (x3 : (⟨S64x128, .f32⟩ : BufTy).Contents (Elt Ideal)) (x4 : (⟨S500000, .i32⟩ : BufTy).Contents (Elt Ideal))
    (e : Fin 500000) (q : Fin 128) :
    val_main_v6 (F := Ideal) x3 x4 (ix2 e q) = x3 (ix2 (graphRow (x4 (ix1 e))) q) := by
  unfold val_main_v6
  rw [Cert.Gcn.gather_rows gather_S64x128_S500000x1_S500000x128_1_0_n_n_0_1_1128 rfl rfl rfl rfl rfl x3 (val_main_v5 (F := Ideal) x4) e q (by decide)]
  refine congrArg x3 (funext fun a => Fin.ext ?_)
  match a with
  | ⟨0, _⟩ =>
    show min (val_main_v5 (F := Ideal) x4 (ix2 e (0 : Fin 1))).toInt.toNat (64 - 1) = min (wrapId (x4 (ix1 e))).toInt.toNat 63
    rw [idx_col]
  | ⟨1, _⟩ => rfl

/-- The joined features of edge e: the three feature rows and the gathered row side by side. -/
theorem concat_apply (x0 x1 x2 : (⟨S500000x128, .f32⟩ : BufTy).Contents (Elt Ideal)) (x3 : (⟨S64x128, .f32⟩ : BufTy).Contents (Elt Ideal))
    (x4 : (⟨S500000, .i32⟩ : BufTy).Contents (Elt Ideal)) (e : Fin 500000) (k : Fin 512) :
    val_main_v7 (F := Ideal) x0 x1 x2 x3 x4 (ix2 e k)
      = featRow (fun q => x0 (ix2 e q)) (fun q => x1 (ix2 e q)) (fun q => x2 (ix2 e q))
          (fun q => val_main_v6 (F := Ideal) x3 x4 (ix2 e q)) k := by
  unfold val_main_v7
  have hk := k.isLt
  by_cases c1 : k.val < 128
  · rw [featRow_run0 _ _ _ _ k ⟨k.val, c1⟩ rfl]
    exact concatenate_apply_piece (1 : Fin 2) _ _ (ix2 e k) 0 (by simp) S500000x128 x0 rfl rfl 0 rfl (ix2 e ⟨k.val, c1⟩)
      (fun b hb => match b, hb with | ⟨0, _⟩, _ => rfl | ⟨1, _⟩, hb => (hb (Fin.ext rfl)).elim)
      (by show 0 + k.val = k.val; omega)
  · by_cases c2 : k.val < 256
    · rw [featRow_run1 _ _ _ _ k ⟨k.val - 128, by omega⟩ (by show k.val = 128 + (k.val - 128); omega)]
      exact concatenate_apply_piece (1 : Fin 2) _ _ (ix2 e k) 1 (by simp) S500000x128 x1 rfl rfl 128 rfl (ix2 e ⟨k.val - 128, by omega⟩)
        (fun b hb => match b, hb with | ⟨0, _⟩, _ => rfl | ⟨1, _⟩, hb => (hb (Fin.ext rfl)).elim)
        (by show 128 + (k.val - 128) = k.val; omega)
    · by_cases c3 : k.val < 384
      · rw [featRow_run2 _ _ _ _ k ⟨k.val - 256, by omega⟩ (by show k.val = 256 + (k.val - 256); omega)]
        exact concatenate_apply_piece (1 : Fin 2) _ _ (ix2 e k) 2 (by simp) S500000x128 x2 rfl rfl 256 rfl (ix2 e ⟨k.val - 256, by omega⟩)
          (fun b hb => match b, hb with | ⟨0, _⟩, _ => rfl | ⟨1, _⟩, hb => (hb (Fin.ext rfl)).elim)
          (by show 256 + (k.val - 256) = k.val; omega)
      · rw [featRow_run3 _ _ _ _ k ⟨k.val - 384, by omega⟩ (by show k.val = 384 + (k.val - 384); omega)]
        exact concatenate_apply_piece (1 : Fin 2) _ _ (ix2 e k) 3 (by simp) S500000x128 (val_main_v6 (F := Ideal) x3 x4) rfl rfl 384 rfl (ix2 e ⟨k.val - 384, by omega⟩)
          (fun b hb => match b, hb with | ⟨0, _⟩, _ => rfl | ⟨1, _⟩, hb => (hb (Fin.ext rfl)).elim)
          (by show 384 + (k.val - 384) = k.val; omega)

/-! ## The result -/

/-- The reference's result array is the specification's. -/
theorem result_eq (x0 x1 x2 : (⟨S500000x128, .f32⟩ : BufTy).Contents (Elt Ideal)) (x3 : (⟨S64x128, .f32⟩ : BufTy).Contents (Elt Ideal))
    (x4 : (⟨S500000, .i32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal)) (x9 : (⟨S512x128, .f32⟩ : BufTy).Contents (Elt Ideal))
    (x10 : (⟨S128, .f32⟩ : BufTy).Contents (Elt Ideal)) :
    val_main_v21 (F := Ideal) x0 x1 x2 x3 x4 x5 x6 x7 x8 x9 x10 = edgeOut x0 x1 x2 x3 x4 x5 x6 x7 x8 x9 x10 := by
  funext i
  obtain ⟨e, q, rfl⟩ : ∃ (e : Fin 500000) (q : Fin 128), i = ix2 e q := ⟨i 0, i 1, eq_ix2 i⟩
  rw [val_main_v21_apply, val_main_v18_apply, val_main_v20_apply, val_main_v19_apply, i20]
  simp only [l18, r18, val_main_v17_apply, val_main_v16_apply, val_main_v13_apply, val_main_v15_apply, val_main_v14_apply, i15,
    l13, r13, val_main_call1_v0_apply, val_main_call1_cst_apply, val_main_v12_apply, val_main_v11_apply, val_main_v8_apply,
    val_main_v10_apply, val_main_v9_apply, i10, l8, r8, val_main_call0_v0_apply, val_main_call0_cst_apply,
    concat_apply, gather_apply, Ideal.addf_def, Ideal.maximumf_def, Ideal.ofBits_def, Ideal.ofBits_zero_f32]
  rfl

end Cert.ReferenceIdeal.RefValue

end
-- ==== Proof.lean ====
/-
  The edge model's kernel against its reference: the five claims.

  Both programs compute, for each of the 500000 edges, three dense layers (512 → 512 → 512 → 128, a rectifier after the
  first two) on the edge's 512 joined features: its source node's, its destination node's and its own 128, and the 128
  of its graph's global row. The reference gathers that row — a negative graph id wraps by 64, the row index is clamped
  into [0, 63] — and joins the four runs; the kernel, 4000 edges to a grid point, clamps the wrapped id to the same row
  word, multiplies the 0/1 indicator of that word by the 64 global rows (a sum that is the named row's entry, since
  0 · x = 0 and 1 · x = x for every extended real), stores the four pieces side by side and reads them back joined.
  Over the extended reals a change of float format is the identity and each matrix product is the sum over the
  contracted coordinate on both sides, so the two results are one array (`Mlp.lean`'s `edgeOut`) entry by entry; no
  finiteness of the inputs is used.

  The three frames are the generated ones (the reference's is its generated run with the result dropped); the
  idealization rewrote nothing, so `preserves` is `True`.
-/
import proofs.«423219_j55499567399386_3_alg».proof.Defs
import proofs.«423219_j55499567399386_3_alg».proof.Proof.Gen.Kernel
import proofs.«423219_j55499567399386_3_alg».proof.Proof.Gen.Kernel.Skeleton
import proofs.«423219_j55499567399386_3_alg».proof.Proof.Gen.Kernel.Launch
import proofs.«423219_j55499567399386_3_alg».proof.Proof.Gen.Kernel.Points
import proofs.«423219_j55499567399386_3_alg».proof.Proof.Gen.Kernel.Frame
import proofs.«423219_j55499567399386_3_alg».proof.Proof.Gen.KernelIdeal
import proofs.«423219_j55499567399386_3_alg».proof.Proof.Gen.KernelIdeal.Skeleton
import proofs.«423219_j55499567399386_3_alg».proof.Proof.Gen.KernelIdeal.Launch
import proofs.«423219_j55499567399386_3_alg».proof.Proof.Gen.KernelIdeal.Points
import proofs.«423219_j55499567399386_3_alg».proof.Proof.Gen.KernelIdeal.Frame
import proofs.«423219_j55499567399386_3_alg».proof.Proof.Gen.ReferenceIdeal
import proofs.«423219_j55499567399386_3_alg».proof.Proof.Gen.Pre_finite_inputs
import proofs.«423219_j55499567399386_3_alg».proof.Proof.Gen.KernelIdeal.Value
import proofs.«423219_j55499567399386_3_alg».proof.Proof.Gen.ReferenceIdeal.Run
import proofs.«423219_j55499567399386_3_alg».proof.Proof.Gen.ReferenceIdeal.Read
import proofs.«423219_j55499567399386_3_alg».proof.Proof.KernelValue
import proofs.«423219_j55499567399386_3_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's array of the (agreeing) arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v21_eq, Cert.ReferenceIdeal.RefValue.result_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
